-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v15) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x4096 : Shape := ⟨2, ![32, 4096]⟩
abbrev S4096x11008 : Shape := ⟨2, ![4096, 11008]⟩
abbrev S32x11008 : Shape := ⟨2, ![32, 11008]⟩
abbrev S11008 : Shape := ⟨1, ![11008]⟩
abbrev S_ : Shape := ⟨0, ![]⟩

class Facts : Prop where
  bcast_S_S32x4096 : S_.BroadcastsInDim S32x4096 (![] : Fin 0 → Fin S32x4096.rank)
  reducesTo_S32x4096_S_d0_1 : S32x4096.ReducesTo [0, 1] S_
  h_S_ : 0 < S_.numel
  bcast_S_S32x11008 : S_.BroadcastsInDim S32x11008 (![] : Fin 0 → Fin S32x11008.rank)
  reducesTo_S32x11008_S_d0_1 : S32x11008.ReducesTo [0, 1] S_
  bcast_S_S11008 : S_.BroadcastsInDim S11008 (![] : Fin 0 → Fin S11008.rank)
  reducesTo_S11008_S_d0 : S11008.ReducesTo [0] S_
  bcast_S_S4096x11008 : S_.BroadcastsInDim S4096x11008 (![] : Fin 0 → Fin S4096x11008.rank)
  reducesTo_S4096x11008_S_d0_1 : S4096x11008.ReducesTo [0, 1] S_

variable [Facts]

def fn_part1 {F : FTy → Type} [FloatOps F] (main_arg1 : IVec S4096x11008 32) (main_arg2 : IVec S32x11008 32) (main_v13 : IVec S_ 1) (main_v15 : IVec S4096x11008 1) (main_c_5 : IVec S_ 1) : IVec S_ 1 :=
  let main_v16 : IVec S_ 1 := (fun x v => Host.reduce IntOp.andi x v reducesTo_S4096x11008_S_d0_1 h_S_) main_v15 main_c_5
  let main_v17 : IVec S_ 1 := andi main_v13 main_v16
  let main_c_6 : IVec S_ 32 := constantI S_ 32 16#32
  let main_v18 : IVec S4096x11008 32 := broadcastInDim S4096x11008 ![] bcast_S_S4096x11008 main_c_6
  let main_v19 : IVec S4096x11008 1 := cmpi .slt main_arg1 main_v18
  let main_c_7 : IVec S_ 1 := constantI S_ 1 1#1
  let main_v20 : IVec S_ 1 := (fun x v => Host.reduce IntOp.andi x v reducesTo_S4096x11008_S_d0_1 h_S_) main_v19 main_c_7
  let main_v21 : IVec S_ 1 := andi main_v17 main_v20
  let main_c_8 : IVec S_ 32 := constantI S_ 32 0#32
  let main_v22 : IVec S32x11008 32 := broadcastInDim S32x11008 ![] bcast_S_S32x11008 main_c_8
  let main_v23 : IVec S32x11008 1 := cmpi .sge main_arg2 main_v22
  let main_c_9 : IVec S_ 1 := constantI S_ 1 1#1
  let main_v24 : IVec S_ 1 := (fun x v => Host.reduce IntOp.andi x v reducesTo_S32x11008_S_d0_1 h_S_) main_v23 main_c_9
  let main_v25 : IVec S_ 1 := andi main_v21 main_v24
  let main_c_10 : IVec S_ 32 := constantI S_ 32 16#32
  let main_v26 : IVec S32x11008 32 := broadcastInDim S32x11008 ![] bcast_S_S32x11008 main_c_10
  let main_v27 : IVec S32x11008 1 := cmpi .slt main_arg2 main_v26
  let main_c_11 : IVec S_ 1 := constantI S_ 1 1#1
  let main_v28 : IVec S_ 1 := (fun x v => Host.reduce IntOp.andi x v reducesTo_S32x11008_S_d0_1 h_S_) main_v27 main_c_11
  let main_v29 : IVec S_ 1 := andi main_v25 main_v28
  main_v29

def fn {F : FTy → Type} [FloatOps F] (main_arg0 : FVec F S32x4096 .f32) (main_arg1 : IVec S4096x11008 32) (main_arg2 : IVec S32x11008 32) (main_arg3 : FVec F S32x11008 .f32) (main_arg4 : FVec F S11008 .f32) : IVec S_ 1 :=
  let main_v0 : FVec F S32x4096 .f32 := Host.absf main_arg0
  let main_cst : FVec F S_ .f32 := constant S_ .f32 0x7F800000#32
  let main_v1 : FVec F S32x4096 .f32 := broadcastInDim S32x4096 ![] bcast_S_S32x4096 main_cst
  let main_v2 : IVec S32x4096 1 := cmpf .olt main_v0 main_v1
  let main_c : IVec S_ 1 := constantI S_ 1 1#1
  let main_v3 : IVec S_ 1 := (fun x v => Host.reduce IntOp.andi x v reducesTo_S32x4096_S_d0_1 h_S_) main_v2 main_c
  let main_v4 : FVec F S32x11008 .f32 := Host.absf main_arg3
  let main_cst_0 : FVec F S_ .f32 := constant S_ .f32 0x7F800000#32
  let main_v5 : FVec F S32x11008 .f32 := broadcastInDim S32x11008 ![] bcast_S_S32x11008 main_cst_0
  let main_v6 : IVec S32x11008 1 := cmpf .olt main_v4 main_v5
  let main_c_1 : IVec S_ 1 := constantI S_ 1 1#1
  let main_v7 : IVec S_ 1 := (fun x v => Host.reduce IntOp.andi x v reducesTo_S32x11008_S_d0_1 h_S_) main_v6 main_c_1
  let main_v8 : IVec S_ 1 := andi main_v3 main_v7
  let main_v9 : FVec F S11008 .f32 := Host.absf main_arg4
  let main_cst_2 : FVec F S_ .f32 := constant S_ .f32 0x7F800000#32
  let main_v10 : FVec F S11008 .f32 := broadcastInDim S11008 ![] bcast_S_S11008 main_cst_2
  let main_v11 : IVec S11008 1 := cmpf .olt main_v9 main_v10
  let main_c_3 : IVec S_ 1 := constantI S_ 1 1#1
  let main_v12 : IVec S_ 1 := (fun x v => Host.reduce IntOp.andi x v reducesTo_S11008_S_d0 h_S_) main_v11 main_c_3
  let main_v13 : IVec S_ 1 := andi main_v8 main_v12
  let main_c_4 : IVec S_ 32 := constantI S_ 32 0#32
  let main_v14 : IVec S4096x11008 32 := broadcastInDim S4096x11008 ![] bcast_S_S4096x11008 main_c_4
  let main_v15 : IVec S4096x11008 1 := cmpi .sge main_arg1 main_v14
  let main_c_5 : IVec S_ 1 := constantI S_ 1 1#1
  fn_part1 (F := F) main_arg1 main_arg2 main_v13 main_v15 main_c_5
-- ==== Kernel.lean ====
abbrev S32x4096 : Shape := ⟨2, ![32, 4096]⟩
abbrev S4096x11008 : Shape := ⟨2, ![4096, 11008]⟩
abbrev S32x11008 : Shape := ⟨2, ![32, 11008]⟩
abbrev S11008 : Shape := ⟨1, ![11008]⟩
abbrev S1x11008 : Shape := ⟨2, ![1, 11008]⟩
abbrev S4096x256 : Shape := ⟨2, ![4096, 256]⟩
abbrev S32x256 : Shape := ⟨2, ![32, 256]⟩
abbrev S1x256 : Shape := ⟨2, ![1, 256]⟩
abbrev S32x1x256 : Shape := ⟨3, ![32, 1, 256]⟩
abbrev S32x128x256 : Shape := ⟨3, ![32, 128, 256]⟩

abbrev nBuf : Space → Nat
  | .hbm => 7
  | .vmem => 11
  | .smem => 0
  | _ => 0

abbrev bufTy : (tb : Table) → Fin (tcTables nBuf tb) → BufTy
  | .hbm, ⟨0, _⟩ => ⟨S32x4096, .f32⟩
  | .hbm, ⟨1, _⟩ => ⟨S4096x11008, .i32⟩
  | .hbm, ⟨2, _⟩ => ⟨S32x11008, .i32⟩
  | .hbm, ⟨3, _⟩ => ⟨S32x11008, .f32⟩
  | .hbm, ⟨4, _⟩ => ⟨S11008, .f32⟩
  | .hbm, ⟨5, _⟩ => ⟨S1x11008, .f32⟩
  | .hbm, ⟨6, _⟩ => ⟨S32x11008, .f32⟩
  | .local _ .vmem, ⟨0, _⟩ => ⟨S32x4096, .f32⟩
  | .local _ .vmem, ⟨1, _⟩ => ⟨S4096x256, .i32⟩
  | .local _ .vmem, ⟨2, _⟩ => ⟨S4096x256, .i32⟩
  | .local _ .vmem, ⟨3, _⟩ => ⟨S32x256, .i32⟩
  | .local _ .vmem, ⟨4, _⟩ => ⟨S32x256, .i32⟩
  | .local _ .vmem, ⟨5, _⟩ => ⟨S32x256, .f32⟩
  | .local _ .vmem, ⟨6, _⟩ => ⟨S32x256, .f32⟩
  | .local _ .vmem, ⟨7, _⟩ => ⟨S1x256, .f32⟩
  | .local _ .vmem, ⟨8, _⟩ => ⟨S1x256, .f32⟩
  | .local _ .vmem, ⟨9, _⟩ => ⟨S32x256, .f32⟩
  | .local _ .vmem, ⟨10, _⟩ => ⟨S32x256, .f32⟩
  | _, _ => ⟨S32x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_call0_v0 : Ref sig .tc := ⟨.hbm, 5, rfl⟩
abbrev main_v0 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨1, ![43], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S32x4096 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S4096x256 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S32x256 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S32x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S32x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  shapeCasts_S11008_S1x11008 : S11008.ShapeCasts S1x11008
  inb_S4096x256_S4096x256_0_0 : ∀ a, (![0, 0] : Fin 2 → Nat) a + S4096x256.size a ≤ S4096x256.size a
  h_S4096x256 : 0 < S4096x256.numel
  inb_S32x256_S32x256_0_0 : ∀ a, (![0, 0] : Fin 2 → Nat) a + S32x256.size a ≤ S32x256.size a
  h_S32x256 : 0 < S32x256.numel
  shapeCasts_S32x256_S32x1x256 : S32x256.ShapeCasts S32x1x256
  shapeCasts_S32x1x256_S32x1x256 : S32x1x256.ShapeCasts S32x1x256
  broadcasts_S32x1x256_S32x128x256 : S32x1x256.Broadcasts S32x128x256
  shapeCasts_S32x128x256_S4096x256 : S32x128x256.ShapeCasts S4096x256
  bitsLt_bf16_f32 : FTy.bits .bf16 < FTy.bits .f32
  inb_S32x4096_S32x4096_0_0 : ∀ a, (![0, 0] : Fin 2 → Nat) a + S32x4096.size a ≤ S32x4096.size a
  h_S32x4096 : 0 < S32x4096.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S32x256 : S1x256.Broadcasts S32x256
  dot_S32x4096_S4096x256_S32x256_1_0_0_1_n_n_wf : DotDims.WF S32x4096 S4096x256 S32x256 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S32x4096.size a ≤ S32x4096.size a
  hwx0_0 : ∀ i : grid0.Coords, EltTy.bits .f32 = 32 ∨ (Rect.block (s := S32x4096) S32x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4096x256.size a ≤ S4096x11008.size a
  hwx0_1 : ∀ i : grid0.Coords, EltTy.bits .i32 = 32 ∨ (Rect.block (s := S4096x11008) S4096x256.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S32x256.size a ≤ S32x11008.size a
  hwx0_2 : ∀ i : grid0.Coords, EltTy.bits .i32 = 32 ∨ (Rect.block (s := S32x11008) S32x256.size (cc0_transform_2 i) (hinb0_2 i)).WholeWords (EltTy.packing .i32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S32x256.size a ≤ S32x11008.size a
  hwx0_3 : ∀ i : grid0.Coords, EltTy.bits .f32 = 32 ∨ (Rect.block (s := S32x11008) S32x256.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x256.size a ≤ S1x11008.size a
  hwx0_4 : ∀ i : grid0.Coords, EltTy.bits .f32 = 32 ∨ (Rect.block (s := S1x11008) S1x256.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S32x256.size a ≤ S32x11008.size a
  hwx0_5 : ∀ i : grid0.Coords, EltTy.bits .f32 = 32 ∨ (Rect.block (s := S32x11008) S32x256.size (cc0_transform_5 i) (hinb0_5 i)).WholeWords (EltTy.packing .f32)

variable [Facts₀]

def dot_S32x4096_S4096x256_S32x256_1_0_0_1_n_n : DotDims S32x4096 S4096x256 S32x256 where
  lhsContracting := [1]
  rhsContracting := [0]
  lhsNonContracting := [0]
  rhsNonContracting := [1]
  lhsBatch := []
  rhsBatch := []
  wf := dot_S32x4096_S4096x256_S32x256_1_0_0_1_n_n_wf

abbrev win0_0 : Pipeline.Window sig grid0 :=
  Pipeline.Window.ofSpec (Memref.whole main_arg0) S32x4096.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S4096x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S32x256.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S32x256.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_call0_v0) S1x256.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v0) S32x256.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S32x4096 : Shape := ⟨2, ![32, 4096]⟩
abbrev S4096x11008 : Shape := ⟨2, ![4096, 11008]⟩
abbrev S32x11008 : Shape := ⟨2, ![32, 11008]⟩
abbrev S11008 : Shape := ⟨1, ![11008]⟩
abbrev S_ : Shape := ⟨0, ![]⟩
abbrev S32x128x11008 : Shape := ⟨3, ![32, 128, 11008]⟩
abbrev S1x11008 : Shape := ⟨2, ![1, 11008]⟩

abbrev nBuf : Space → Nat
  | .hbm => 23
  | .vmem => 0
  | .smem => 0
  | _ => 0

abbrev bufTy : (tb : Table) → Fin (tcTables nBuf tb) → BufTy
  | .hbm, ⟨0, _⟩ => ⟨S32x4096, .f32⟩
  | .hbm, ⟨1, _⟩ => ⟨S4096x11008, .i32⟩
  | .hbm, ⟨2, _⟩ => ⟨S32x11008, .i32⟩
  | .hbm, ⟨3, _⟩ => ⟨S32x11008, .f32⟩
  | .hbm, ⟨4, _⟩ => ⟨S11008, .f32⟩
  | .hbm, ⟨5, _⟩ => ⟨S_, .i32⟩
  | .hbm, ⟨6, _⟩ => ⟨S4096x11008, .i32⟩
  | .hbm, ⟨7, _⟩ => ⟨S4096x11008, .i32⟩
  | .hbm, ⟨8, _⟩ => ⟨S4096x11008, .f32⟩
  | .hbm, ⟨9, _⟩ => ⟨S_, .i32⟩
  | .hbm, ⟨10, _⟩ => ⟨S32x11008, .i32⟩
  | .hbm, ⟨11, _⟩ => ⟨S32x11008, .i32⟩
  | .hbm, ⟨12, _⟩ => ⟨S32x11008, .f32⟩
  | .hbm, ⟨13, _⟩ => ⟨S32x128x11008, .f32⟩
  | .hbm, ⟨14, _⟩ => ⟨S4096x11008, .f32⟩
  | .hbm, ⟨15, _⟩ => ⟨S32x128x11008, .f32⟩
  | .hbm, ⟨16, _⟩ => ⟨S4096x11008, .f32⟩
  | .hbm, ⟨17, _⟩ => ⟨S4096x11008, .f32⟩
  | .hbm, ⟨18, _⟩ => ⟨S4096x11008, .f32⟩
  | .hbm, ⟨19, _⟩ => ⟨S32x11008, .f32⟩
  | .hbm, ⟨20, _⟩ => ⟨S1x11008, .f32⟩
  | .hbm, ⟨21, _⟩ => ⟨S32x11008, .f32⟩
  | .hbm, ⟨22, _⟩ => ⟨S32x11008, .f32⟩
  | _, _ => ⟨S32x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_c_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩

abbrev nD : Nat := 1
abbrev τ : Topo := Topo.v7x

variable {F : FTy → Type} [FloatOps F]

class Facts₀ : Prop where
  bcast_S_S4096x11008 : S_.BroadcastsInDim S4096x11008 (![] : Fin 0 → Fin S4096x11008.rank)
  bcast_S_S32x11008 : S_.BroadcastsInDim S32x11008 (![] : Fin 0 → Fin S32x11008.rank)
  bcast_S32x11008_S32x128x11008_0_2 : S32x11008.BroadcastsInDim S32x128x11008 (![0, 2] : Fin 2 → Fin S32x128x11008.rank)
  shapeCasts_S32x128x11008_S4096x11008 : S32x128x11008.ShapeCasts S4096x11008
  bcast_S11008_S1x11008_1 : S11008.BroadcastsInDim S1x11008 (![1] : Fin 1 → Fin S1x11008.rank)
  bcast_S1x11008_S32x11008_0_1 : S1x11008.BroadcastsInDim S32x11008 (![0, 1] : Fin 2 → Fin S32x11008.rank)
  dot_S32x4096_S4096x11008_S32x11008_1_0_0_1_n_n_wf : DotDims.WF S32x4096 S4096x11008 S32x11008 [1] [0] [0] [1] [] []

variable [Facts₀]

def dot_S32x4096_S4096x11008_S32x11008_1_0_0_1_n_n : DotDims S32x4096 S4096x11008 S32x11008 where
  lhsContracting := [1]
  rhsContracting := [0]
  lhsNonContracting := [0]
  rhsNonContracting := [1]
  lhsBatch := []
  rhsBatch := []
  wf := dot_S32x4096_S4096x11008_S32x11008_1_0_0_1_n_n_wf

class Facts : Prop extends Facts₀ where

variable [Facts]
-- ==== Proof.CodeRange.lean ====
/-
  What the precondition says of the two integer arguments. Its last four conjuncts are `jnp.all` of an elementwise signed
  comparison of each code with the constants 0 and 16; the whole predicate being 1 makes each conjunct 1, each `jnp.all`
  being 1 makes every element of its comparison 1, and a signed comparison being 1 is the order of the words read signed.
  So every entry of `qweight` and of `qzeros` is a 4-bit code: `0 ≤ q < 16` as a signed integer.
-/
import proofs.«111892_j39084202394118_1_alg».proof.Pre_finite_inputs
import Idealize.ShloMosaic.Lib.ReduceAll
import Idealize.ShloMosaic.Lib.ValueIdx

noncomputable section

namespace Cert.CodeRange

open Idealize.ShloMosaic Cert.Pre_finite_inputs

variable [Cert.Pre_finite_inputs.Facts]
variable {F : FTy → Type} [FloatOps F]

/-- The rank-0 shape has one index. -/
instance : Subsingleton S_.Idx := ⟨fun _ _ => funext fun d => d.elim0⟩

/-- Under the precondition every weight code and every zero-point code lies in `[0, 16)`, read signed. -/
theorem codes_of_pre (a0 : FVec F S32x4096 .f32) (a1 : IVec S4096x11008 32) (a2 : IVec S32x11008 32)
    (a3 : FVec F S32x11008 .f32) (a4 : FVec F S11008 .f32) (h : fn (F := F) a0 a1 a2 a3 a4 = fun _ => 1#1) :
    (∀ i, 0 ≤ (a1 i).toInt ∧ (a1 i).toInt < 16) ∧ (∀ i, 0 ≤ (a2 i).toInt ∧ (a2 i).toInt < 16) := by
  have e := congrFun h ValueIdx.ix0
  dsimp only [fn, fn_part1] at e
  change IntOp.andi _ _ = 1#1 at e
  obtain ⟨e, w28⟩ := IntOp.andi_eq_one.1 e
  change IntOp.andi _ _ = 1#1 at e
  obtain ⟨e, w24⟩ := IntOp.andi_eq_one.1 e
  change IntOp.andi _ _ = 1#1 at e
  obtain ⟨e, w20⟩ := IntOp.andi_eq_one.1 e
  change IntOp.andi _ _ = 1#1 at e
  obtain ⟨-, w16⟩ := IntOp.andi_eq_one.1 e
  have z0 : (0#32 : BitVec 32).toInt = 0 := by decide
  have z16 : (16#32 : BitVec 32).toInt = 16 := by decide
  refine ⟨fun i => ⟨?_, ?_⟩, fun i => ⟨?_, ?_⟩⟩
  · have c := Host.reduce_andi_all _ _ _ _ ValueIdx.ix0 w16 i
    change IntOp.cmpi .sge (a1 i) 0#32 = 1#1 at c
    have := IntOp.cmpi_sge.1 c
    rwa [z0] at this
  · have c := Host.reduce_andi_all _ _ _ _ ValueIdx.ix0 w20 i
    change IntOp.cmpi .slt (a1 i) 16#32 = 1#1 at c
    have := IntOp.cmpi_slt.1 c
    rwa [z16] at this
  · have c := Host.reduce_andi_all _ _ _ _ ValueIdx.ix0 w24 i
    change IntOp.cmpi .sge (a2 i) 0#32 = 1#1 at c
    have := IntOp.cmpi_sge.1 c
    rwa [z0] at this
  · have c := Host.reduce_andi_all _ _ _ _ ValueIdx.ix0 w28 i
    change IntOp.cmpi .slt (a2 i) 16#32 = 1#1 at c
    have := IntOp.cmpi_slt.1 c
    rwa [z16] at this

end Cert.CodeRange

end
-- ==== Proof.Dequant.lean ====
/-
  The dequantised linear layer, as one function of its five argument arrays, and the one fact about 32-bit words the two
  programs differ by.

  A weight code `q` and its group's zero-point code `z` are recentred by `8 = 2^(4-1)`, their difference is scaled by the
  group's scale `s`, and the result is the weight `((q - 8) - (z - 8)) * s`; row `k` of the weight matrix belongs to group
  `k / 128`. The layer's output at token `t` and feature `n` is `Σ_k x[t, k] * weight[k, n] + bias[n]`.

  The kernel recentres AFTER converting a code to a real (`q` read signed, minus the real 8); the reference recentres the
  32-bit word first (wrapping subtraction) and converts afterwards. For a code in `[0, 16)` the word subtraction does not
  wrap, so both are the real number `q - 8`: `recentre`.
-/
import Idealize.ShloMosaic.PureOps.Ideal
import Idealize.ShloMosaic.PureOps.Ideal.Laws
import Idealize.ShloMosaic.Lib.ValueIdx

noncomputable section

namespace Cert.Dequant

open Idealize.ShloMosaic Idealize.ShloMosaic.ValueIdx

/-- The f32 literal `8.0` denotes the real number 8. -/
theorem ofBits_eight : Ideal.ofBits .f32 0x41000000#32 = ((8 : ℝ) : EReal) := by
  simp [Ideal.ofBits, Ideal.ieee, -EReal.coe_mul]; norm_num

/-- A code word in `[0, 16)` recentred as a WORD (wrapping subtraction of 8) and then read signed is the code read signed
    and recentred as a REAL: the subtraction stays inside the signed range, so nothing wraps. -/
theorem recentre (q : BitVec 32) (h0 : 0 ≤ q.toInt) (h1 : q.toInt < 16) :
    (((IntOp.subi q 8#32).toInt : ℝ) : EReal) = ((q.toInt : ℝ) : EReal) - Ideal.ofBits .f32 0x41000000#32 := by
  have h8 : (8#32 : BitVec 32).toInt = 8 := by decide
  have h : (IntOp.subi q 8#32).toInt = q.toInt - 8 := by
    rw [IntOp.subi, BitVec.toInt_sub, h8]
    exact Int.bmod_eq_of_le (by omega) (by omega)
  rw [h, ofBits_eight, ← EReal.coe_sub]
  push_cast
  rfl

/-- The group of weight row `k`: 128 consecutive rows share a zero point and a scale. -/
def grp (k : Fin 4096) : Fin 32 := ⟨k.val / 128, by have := k.isLt; omega⟩

/-- One dequantised weight from its code, its group's zero-point code and its group's scale, as the kernel spells it:
    each code read signed as a real, recentred by the literal 8, the difference scaled. -/
def weight (q z : BitVec 32) (s : EReal) : EReal :=
  ((((q.toInt : ℝ) : EReal) - Ideal.ofBits .f32 0x41000000#32) - (((z.toInt : ℝ) : EReal) - Ideal.ofBits .f32 0x41000000#32)) * s

/-- One output entry: `out[t, n] = Σ_k x[t, k] * weight(qweight[k, n], qzeros[k / 128, n], scales[k / 128, n]) + bias[n]`. -/
def entry (x : (⟨2, ![32, 4096]⟩ : Shape).Idx → EReal) (qw : (⟨2, ![4096, 11008]⟩ : Shape).Idx → BitVec 32)
    (qz : (⟨2, ![32, 11008]⟩ : Shape).Idx → BitVec 32) (sc : (⟨2, ![32, 11008]⟩ : Shape).Idx → EReal)
    (b : (⟨1, ![11008]⟩ : Shape).Idx → EReal) (t : Fin 32) (n : Fin 11008) : EReal :=
  (∑ k : Fin 4096, x (ix2 t k) * weight (qw (ix2 k n)) (qz (ix2 (grp k) n)) (sc (ix2 (grp k) n))) + b (ix1 n)

/-- The layer's whole output array, entry by entry. -/
def layer (x : (⟨2, ![32, 4096]⟩ : Shape).Idx → EReal) (qw : (⟨2, ![4096, 11008]⟩ : Shape).Idx → BitVec 32)
    (qz : (⟨2, ![32, 11008]⟩ : Shape).Idx → BitVec 32) (sc : (⟨2, ![32, 11008]⟩ : Shape).Idx → EReal)
    (b : (⟨1, ![11008]⟩ : Shape).Idx → EReal) : (⟨2, ![32, 11008]⟩ : Shape).Idx → EReal :=
  fun i => entry x qw qz sc b (i 0) (i 1)

end Cert.Dequant

end
-- ==== Proof.RefLayer.lean ====
/-
  The reference, read at an index, is the layer function. Its stages are read by the generated read-at-an-index lemmas:
  the sum over the contracted axis `k` of `x[t, k]` times the dequantised weight at `[k, n]`, plus `bias[n]`. The zero
  points and scales reach row `k` through a broadcast `[32, 11008] → [32, 128, 11008]` and a reshape to `[4096, 11008]`:
  row `k` of the reshaped array is entry `(k / 128, k % 128)` of the broadcast one, which is row `k / 128` of the operand.
  The reference recentres each code as a 32-bit word before converting it; for codes in `[0, 16)` that is the kernel's
  recentring of the converted code (`Dequant.recentre`), and this is the only place the code ranges are used.
-/
import proofs.«111892_j39084202394118_1_alg».proof.Proof.Gen.ReferenceIdeal.Read
import proofs.«111892_j39084202394118_1_alg».proof.Proof.Dequant

noncomputable section

namespace Cert.RefLayer

open Cert.ReferenceIdeal Cert.ReferenceIdeal.Gen Cert.ReferenceIdeal.Read Idealize.ShloMosaic Idealize.ShloMosaic.ValueIdx Cert.Dequant

/-- The left operand of the product at output index `i` and contraction index `k`: token `i 0`, input feature `k`. -/
theorem lidx_eq (i : S32x11008.Idx) (k : Fin 4096) : lidx_main_v12 i k = ix2 (i 0) k :=
  funext fun a => Fin.ext (by match a with | ⟨0, _⟩ => rfl | ⟨1, _⟩ => rfl)

/-- The right operand's: input feature `k`, output feature `i 1`. -/
theorem ridx_eq (i : S32x11008.Idx) (k : Fin 4096) : ridx_main_v12 i k = ix2 k (i 1) :=
  funext fun a => Fin.ext (by match a with | ⟨0, _⟩ => rfl | ⟨1, _⟩ => rfl)

/-- Row `k` of the repeated zero points is row `k / 128` of the zero points. -/
theorem zidx_eq (k : Fin 4096) (n : Fin 11008) : idx_main_v6 (idx_main_v7 (ix2 k n)) = ix2 (grp k) n :=
  funext fun a => Fin.ext (by
    have hk := k.isLt; have hn := n.isLt
    match a with
    | ⟨0, _⟩ => show (k.val * 11008 + n.val) / 1409024 = k.val / 128; omega
    | ⟨1, _⟩ => show (k.val * 11008 + n.val) % 11008 = n.val; omega)

/-- Row `k` of the repeated scales is row `k / 128` of the scales. -/
theorem sidx_eq (k : Fin 4096) (n : Fin 11008) : idx_main_v8 (idx_main_v9 (ix2 k n)) = ix2 (grp k) n :=
  funext fun a => Fin.ext (by
    have hk := k.isLt; have hn := n.isLt
    match a with
    | ⟨0, _⟩ => show (k.val * 11008 + n.val) / 1409024 = k.val / 128; omega
    | ⟨1, _⟩ => show (k.val * 11008 + n.val) % 11008 = n.val; omega)

/-- The bias broadcast over the tokens is read at the output feature. -/
theorem bidx_eq (i : S32x11008.Idx) : idx_main_v13 (idx_main_v14 i) = ix1 (i 1) :=
  funext fun a => Fin.ext (by match a with | ⟨0, _⟩ => rfl)

/-- One entry of the reference's dequantised weight matrix is `Dequant.weight` of the code, its group's zero point and its
    group's scale, when both codes are in `[0, 16)`. -/
theorem weight_eq (x1 : IVec S4096x11008 32) (x2 : IVec S32x11008 32) (x3 : FVec Ideal S32x11008 .f32)
    (h1 : ∀ i, 0 ≤ (x1 i).toInt ∧ (x1 i).toInt < 16) (h2 : ∀ i, 0 ≤ (x2 i).toInt ∧ (x2 i).toInt < 16)
    (k : Fin 4096) (n : Fin 11008) :
    val_main_v11 (F := Ideal) x1 x2 x3 (ix2 k n) = weight (x1 (ix2 k n)) (x2 (ix2 (grp k) n)) (x3 (ix2 (grp k) n)) := by
  rw [val_main_v11_apply, val_main_v10_apply, val_main_v2_apply, val_main_v1_apply, val_main_v0_apply, val_main_c_apply,
    val_main_v7_apply, val_main_v6_apply, val_main_v5_apply, val_main_v4_apply, val_main_v3_apply, val_main_c_0_apply,
    val_main_v9_apply, val_main_v8_apply, zidx_eq, sidx_eq]
  show ((((IntOp.subi (x1 (ix2 k n)) 8#32).toInt : ℝ) : EReal) - (((IntOp.subi (x2 (ix2 (grp k) n)) 8#32).toInt : ℝ) : EReal)) * x3 (ix2 (grp k) n) = _
  rw [recentre _ (h1 _).1 (h1 _).2, recentre _ (h2 _).1 (h2 _).2]
  rfl

/-- THE REFERENCE IS THE LAYER: its result stage, as a function of the five arguments, under the code ranges. -/
theorem ref_eq (x0 : FVec Ideal S32x4096 .f32) (x1 : IVec S4096x11008 32) (x2 : IVec S32x11008 32)
    (x3 : FVec Ideal S32x11008 .f32) (x4 : FVec Ideal S11008 .f32)
    (h1 : ∀ i, 0 ≤ (x1 i).toInt ∧ (x1 i).toInt < 16) (h2 : ∀ i, 0 ≤ (x2 i).toInt ∧ (x2 i).toInt < 16) :
    val_main_v15 (F := Ideal) x0 x1 x2 x3 x4 = layer x0 x1 x2 x3 x4 := by
  funext i
  rw [val_main_v15_apply, val_main_v12_apply, val_main_v14_apply, val_main_v13_apply, bidx_eq]
  show (∑ k : Fin 4096, x0 (lidx_main_v12 i k) * val_main_v11 (F := Ideal) x1 x2 x3 (ridx_main_v12 i k)) + x4 (ix1 (i 1))
    = entry x0 x1 x2 x3 x4 (i 0) (i 1)
  unfold entry
  refine congrArg (· + x4 (ix1 (i 1))) (Finset.sum_congr rfl fun k _ => ?_)
  rw [lidx_eq, ridx_eq]
  exact congrArg (x0 (ix2 (i 0) k) * ·) (weight_eq x1 x2 x3 h1 h2 k (i 1))

end Cert.RefLayer

end
-- ==== Proof.KernelBlock.lean ====
/-
  What one grid point's body computes, entry by entry. The body loads its five blocks — the activations `[32, 4096]`, 256
  columns of weight codes `[4096, 256]`, of zero-point codes and of scales `[32, 256]`, and of the bias `[1, 256]` — and
  stores `x · W + bias` where `W[k, q] = ((code[k, q] - 8) - (zero[k / 128, q] - 8)) * scale[k / 128, q]`.
  The per-group rows reach weight row `k` by a broadcast `[32, 1, 256] → [32, 128, 256]` reshaped to `[4096, 256]`: row `k`
  is entry `(k / 128, k % 128)`, which is row `k / 128` of the operand (`rows_apply`). The product into a zero
  accumulator is, at the exact values, the plain sum over the contracted axis (`dot_apply`); the two narrowings to
  bf16 are the identity there.
-/
import proofs.«111892_j39084202394118_1_alg».proof.Proof.Gen.KernelIdeal.Skeleton
import proofs.«111892_j39084202394118_1_alg».proof.Proof.Dequant
import Idealize.ShloMosaic.Lib.Pipeline.Value
import Idealize.ShloMosaic.Lib.ValueIdx
import Idealize.ShloMosaic.PureOps.Ideal.Laws

noncomputable section

namespace Cert.KernelBlock

open Cert.KernelIdeal Cert.KernelIdeal.Gen Idealize.ShloMosaic Idealize.ShloMosaic.ValueIdx Cert.Dequant

/-- A per-group row array repeated 128 times along the rows: row `k` of the result is row `k / 128` of the operand. -/
theorem rows_apply {α : Type} (v : S32x256.Idx → α) (k : Fin 4096) (q : Fin 256) :
    shapeCast S4096x256 (broadcastTo S32x128x256 (shapeCast S32x1x256 (shapeCast S32x1x256 v shapeCasts_S32x256_S32x1x256)
      shapeCasts_S32x1x256_S32x1x256) broadcasts_S32x1x256_S32x128x256) shapeCasts_S32x128x256_S4096x256 (ix2 k q)
      = v (ix2 (grp k) q) := by
  have hk := k.isLt
  rw [shapeCast_apply _ shapeCasts_S32x128x256_S4096x256 (ix2 k q) (ix3 (grp k) ⟨k.val % 128, Nat.mod_lt _ (by decide)⟩ q)
    (by rewrite [Shape.rowMajor_val_three, Shape.rowMajor_val_two]
        show (k.val / 128 * 128 + k.val % 128) * 256 + q.val = k.val * 256 + q.val
        omega)]
  rw [broadcastTo_apply _ broadcasts_S32x1x256_S32x128x256 _ (ix3 (grp k) ⟨0, Nat.one_pos⟩ q) (fun a => by
    match a with
    | ⟨0, _⟩ => show k.val / 128 = if (32 : Nat) = 1 then 0 else k.val / 128; rw [if_neg (by decide)]
    | ⟨1, _⟩ => show 0 = if (1 : Nat) = 1 then 0 else k.val % 128; rw [if_pos rfl]
    | ⟨2, _⟩ => show q.val = if (256 : Nat) = 1 then 0 else q.val; rw [if_neg (by decide)])]
  rw [shapeCast_self]
  rw [shapeCast_apply _ shapeCasts_S32x256_S32x1x256 (ix3 (grp k) ⟨0, Nat.one_pos⟩ q) (ix2 (grp k) q)
    (by rewrite [Shape.rowMajor_val_three, Shape.rowMajor_val_two]
        show k.val / 128 * 256 + q.val = (k.val / 128 * 1 + 0) * 256 + q.val
        omega)]

/-- The bias row repeated over the 32 tokens: entry `(p, q)` is the row's entry `q`. -/
theorem bias_apply {α : Type} (v : S1x256.Idx → α) (p : Fin 32) (q : Fin 256) :
    broadcastTo S32x256 (shapeCast S1x256 v shapeCasts_S1x256_S1x256) broadcasts_S1x256_S32x256 (ix2 p q)
      = v (ix2 ⟨0, Nat.one_pos⟩ q) := by
  rw [broadcastTo_apply _ broadcasts_S1x256_S32x256 _ (ix2 ⟨0, Nat.one_pos⟩ q) (fun a => by
    match a with
    | ⟨0, _⟩ => show 0 = if (1 : Nat) = 1 then 0 else p.val; rw [if_pos rfl]
    | ⟨1, _⟩ => show q.val = if (256 : Nat) = 1 then 0 else q.val; rw [if_neg (by decide)])]
  rw [shapeCast_self]

/-! The product's operand indices at output `(p, q)` and contraction index `k`: `(p, k)` and `(k, q)`. -/

theorem lhs_dot_0 (i : S32x256.Idx) (c : dot_S32x4096_S4096x256_S32x256_1_0_0_1_n_n.contr.Idx) :
    (dot_S32x4096_S4096x256_S32x256_1_0_0_1_n_n.lhsIdx i c 0).val = (i 0).val := by
  unfold DotDims.lhsIdx
  rw [dif_neg (show ¬(0 : Fin S32x4096.rank) ∈ dot_S32x4096_S4096x256_S32x256_1_0_0_1_n_n.lhsBatch by decide), dif_pos (show (0 : Fin S32x4096.rank) ∈ dot_S32x4096_S4096x256_S32x256_1_0_0_1_n_n.lhsNonContracting by decide)]
  rfl
theorem lhs_dot_1 (i : S32x256.Idx) (c : dot_S32x4096_S4096x256_S32x256_1_0_0_1_n_n.contr.Idx) :
    (dot_S32x4096_S4096x256_S32x256_1_0_0_1_n_n.lhsIdx i c 1).val = (c ⟨0, by decide⟩).val :=
  dot_S32x4096_S4096x256_S32x256_1_0_0_1_n_n.lhsIdx_val_of_single rfl i c
theorem rhs_dot_0 (i : S32x256.Idx) (c : dot_S32x4096_S4096x256_S32x256_1_0_0_1_n_n.contr.Idx) :
    (dot_S32x4096_S4096x256_S32x256_1_0_0_1_n_n.rhsIdx i c 0).val = (c ⟨0, by decide⟩).val :=
  dot_S32x4096_S4096x256_S32x256_1_0_0_1_n_n.rhsIdx_val_of_single rfl i c
theorem rhs_dot_1 (i : S32x256.Idx) (c : dot_S32x4096_S4096x256_S32x256_1_0_0_1_n_n.contr.Idx) :
    (dot_S32x4096_S4096x256_S32x256_1_0_0_1_n_n.rhsIdx i c 1).val = (i 1).val := by
  unfold DotDims.rhsIdx
  rw [dif_neg (show ¬(1 : Fin S4096x256.rank) ∈ dot_S32x4096_S4096x256_S32x256_1_0_0_1_n_n.rhsBatch by decide), dif_pos (show (1 : Fin S4096x256.rank) ∈ dot_S32x4096_S4096x256_S32x256_1_0_0_1_n_n.rhsNonContracting by decide)]
  rfl

/-- The block product into a zero accumulator, at the exact values: `Σ_k lhs[p, k] * rhs[k, q]`. -/
theorem dot_apply {φ₁ φ₂ : FTy} (lhs : FVec Ideal S32x4096 φ₁) (rhs : FVec Ideal S4096x256 φ₂) (p : Fin 32) (q : Fin 256) :
    FloatOps.matmul dot_S32x4096_S4096x256_S32x256_1_0_0_1_n_n none lhs rhs (constant S32x256 .f32 0x00000000#32) (ix2 p q)
      = ∑ k : Fin 4096, lhs (ix2 p k) * rhs (ix2 k q) := by
  rw [Ideal.matmul_constant_zero_apply, ← Equiv.sum_comp (ValueIdx.contrEquiv1 dot_S32x4096_S4096x256_S32x256_1_0_0_1_n_n 4096 rfl rfl).symm]
  refine Finset.sum_congr rfl fun k _ => ?_
  have hk := ValueIdx.contrEquiv1_symm_val dot_S32x4096_S4096x256_S32x256_1_0_0_1_n_n 4096 rfl rfl k
  have el : dot_S32x4096_S4096x256_S32x256_1_0_0_1_n_n.lhsIdx (ix2 p q) ((ValueIdx.contrEquiv1 dot_S32x4096_S4096x256_S32x256_1_0_0_1_n_n 4096 rfl rfl).symm k) = ix2 p k := funext fun a => Fin.ext (by
    match a with
    | ⟨0, _⟩ => exact lhs_dot_0 _ _
    | ⟨1, _⟩ => exact (lhs_dot_1 _ _).trans hk)
  have er : dot_S32x4096_S4096x256_S32x256_1_0_0_1_n_n.rhsIdx (ix2 p q) ((ValueIdx.contrEquiv1 dot_S32x4096_S4096x256_S32x256_1_0_0_1_n_n 4096 rfl rfl).symm k) = ix2 k q := funext fun a => Fin.ext (by
    match a with
    | ⟨0, _⟩ => exact (rhs_dot_0 _ _).trans hk
    | ⟨1, _⟩ => exact rhs_dot_1 _ _)
  rw [el, er]

/-- THE BODY'S STORED VALUE at entry `(p, q)` of the output block: the layer's sum over the 4096 input features of the
    activation times the dequantised weight of column `q` of the loaded blocks, plus the bias block's entry `q`. -/
theorem pay_apply (v0 : Vec Ideal S4096x256 .i32) (v4 : Vec Ideal S32x256 .i32) (v8 : Vec Ideal S32x256 .f32)
    (v20 : Vec Ideal S32x4096 .f32) (v23 : Vec Ideal S1x256 .f32) (p : Fin 32) (q : Fin 256) :
    k0_pay1 (F := Ideal) v0 v4 v8 v20 v23 (ix2 p q)
      = (∑ k : Fin 4096, v20 (ix2 p k) * weight (v0 (ix2 k q)) (v4 (ix2 (grp k) q)) (v8 (ix2 (grp k) q)))
        + v23 (ix2 ⟨0, Nat.one_pos⟩ q) := by
  unfold k0_pay1
  refine (congrArg₂ (· + ·) (dot_apply _ _ p q) (bias_apply v23 p q)).trans ?_
  refine congrArg (· + v23 (ix2 ⟨0, Nat.one_pos⟩ q)) (Finset.sum_congr rfl fun k _ => ?_)
  refine congrArg (v20 (ix2 p k) * ·) ?_
  refine (congrArg₂ (fun a b : EReal => ((((v0 (ix2 k q)).toInt : ℝ) : EReal) - Ideal.ofBits .f32 0x41000000#32 - a) * b)
    (rows_apply _ k q) (rows_apply v8 k q)).trans ?_
  rfl

end Cert.KernelBlock

end
-- ==== Proof.KernelLayer.lean ====
/-
  From one grid point's block to the whole output array. The grid has 43 points; point `t` reads all of the activations,
  columns `[256 t, 256 t + 256)` of the weight codes, of the zero-point codes, of the scales and of the bias row, and writes
  columns `[256 t, 256 t + 256)` of the output. By `KernelBlock.pay_apply` what it writes at `(p, q)` is the layer's entry
  `(p, 256 t + q)` — the body reads exactly the columns the entry depends on — so every point writes back its block of
  ONE function of the argument arrays, `Dequant.layer`. The 43 blocks cover the 11008 columns (column `n` lies in block
  `n / 256`), so the array ends as that function. The bias reaches the region as a `[1, 11008]` row, a reshape of the
  `[11008]` argument made before the launch: its entry `(0, n)` is the argument's entry `n`.
-/
import proofs.«111892_j39084202394118_1_alg».proof.Proof.Gen.KernelIdeal.Value
import proofs.«111892_j39084202394118_1_alg».proof.Proof.KernelBlock
import Idealize.ShloMosaic.Lib.StableHlo.Run

noncomputable section

namespace Cert.KernelLayer

open Cert.KernelIdeal Cert.KernelIdeal.Gen Cert.KernelIdeal.Value Idealize.ShloMosaic Idealize.ShloMosaic.TcCoe Idealize.SL.Sem
open Idealize.ShloMosaic.ValueIdx Cert.Dequant
open Idealize.ShloMosaic.Pipeline (Dat)

variable (m : (ℓ : Loc nD τ sig) → Buf (Elt Ideal) ℓ) (ρ : Dev nD → PrngReg)

theorem zero_offsets : (![0, 0] : Fin 2 → Nat) = fun _ => 0 := funext fun a => by fin_cases a <;> rfl

/-- The printed index maps over the 43 points: every window's row block is block 0, the activations' column block is
    block 0, and the five column-tiled windows are at column block `t`. -/
theorem idx_facts : ∀ t : Fin cfg0.N,
    win0_0.index t (0 : Fin 2) = 0 ∧ win0_0.index t (1 : Fin 2) = 0
    ∧ win0_1.index t (0 : Fin 2) = 0 ∧ win0_1.index t (1 : Fin 2) = t.val
    ∧ win0_2.index t (0 : Fin 2) = 0 ∧ win0_2.index t (1 : Fin 2) = t.val
    ∧ win0_3.index t (0 : Fin 2) = 0 ∧ win0_3.index t (1 : Fin 2) = t.val
    ∧ win0_4.index t (0 : Fin 2) = 0 ∧ win0_4.index t (1 : Fin 2) = t.val
    ∧ win0_5.index t (0 : Fin 2) = 0 ∧ win0_5.index t (1 : Fin 2) = t.val :=
  (by decide +kernel : ∀ t : Fin grid0.N, _)

theorem point_lt (t : Fin cfg0.N) : t.val < 43 := lt_of_lt_of_eq t.isLt N_0

/-- Column `q` of point `t`'s blocks is column `256 t + q` of the arrays. -/
def col (t : Fin cfg0.N) (q : Fin 256) : Fin 11008 := ⟨t.val * 256 + q.val, by have := point_lt t; have := q.isLt; omega⟩

/-- The activations' block is the whole array. -/
theorem x_read (c : Dev nD) (t : Fin cfg0.N) (p : Fin 32) (k : Fin 4096) :
    iblk m c 0 t (ix2 p k) = V m c main_arg0 (ix2 p k) := by
  obtain ⟨e0, e1, -⟩ := idx_facts t
  show V m c main_arg0 (((cfg0.win 0).blk t).view.emb (ix2 p k)) = V m c main_arg0 (ix2 p k)
  refine congrArg (V m c main_arg0) (funext fun a => Fin.ext ?_)
  match a with
  | ⟨0, _⟩ => show win0_0.index t (0 : Fin 2) * 32 + 1 * p.val = p.val; omega
  | ⟨1, _⟩ => show win0_0.index t (1 : Fin 2) * 4096 + 1 * k.val = k.val; omega

/-- The weight codes' block holds columns `256 t + q`. -/
theorem w_read (c : Dev nD) (t : Fin cfg0.N) (k : Fin 4096) (q : Fin 256) :
    iblk m c 1 t (ix2 k q) = V m c main_arg1 (ix2 k (col t q)) := by
  obtain ⟨-, -, e0, e1, -⟩ := idx_facts t
  show V m c main_arg1 (((cfg0.win 1).blk t).view.emb (ix2 k q)) = V m c main_arg1 (ix2 k (col t q))
  refine congrArg (V m c main_arg1) (funext fun a => Fin.ext ?_)
  match a with
  | ⟨0, _⟩ => show win0_1.index t (0 : Fin 2) * 4096 + 1 * k.val = k.val; omega
  | ⟨1, _⟩ => show win0_1.index t (1 : Fin 2) * 256 + 1 * q.val = t.val * 256 + q.val; omega

/-- The zero-point codes' block holds columns `256 t + q`. -/
theorem z_read (c : Dev nD) (t : Fin cfg0.N) (g : Fin 32) (q : Fin 256) :
    iblk m c 2 t (ix2 g q) = V m c main_arg2 (ix2 g (col t q)) := by
  obtain ⟨-, -, -, -, e0, e1, -⟩ := idx_facts t
  show V m c main_arg2 (((cfg0.win 2).blk t).view.emb (ix2 g q)) = V m c main_arg2 (ix2 g (col t q))
  refine congrArg (V m c main_arg2) (funext fun a => Fin.ext ?_)
  match a with
  | ⟨0, _⟩ => show win0_2.index t (0 : Fin 2) * 32 + 1 * g.val = g.val; omega
  | ⟨1, _⟩ => show win0_2.index t (1 : Fin 2) * 256 + 1 * q.val = t.val * 256 + q.val; omega

/-- The scales' block holds columns `256 t + q`. -/
theorem s_read (c : Dev nD) (t : Fin cfg0.N) (g : Fin 32) (q : Fin 256) :
    iblk m c 3 t (ix2 g q) = V m c main_arg3 (ix2 g (col t q)) := by
  obtain ⟨-, -, -, -, -, -, e0, e1, -⟩ := idx_facts t
  show V m c main_arg3 (((cfg0.win 3).blk t).view.emb (ix2 g q)) = V m c main_arg3 (ix2 g (col t q))
  refine congrArg (V m c main_arg3) (funext fun a => Fin.ext ?_)
  match a with
  | ⟨0, _⟩ => show win0_3.index t (0 : Fin 2) * 32 + 1 * g.val = g.val; omega
  | ⟨1, _⟩ => show win0_3.index t (1 : Fin 2) * 256 + 1 * q.val = t.val * 256 + q.val; omega

/-- The bias row as the region finds it: the `[11008]` argument reshaped to `[1, 11008]` before the launch. -/
theorem bias_row (c : Dev nD) :
    (V m c main_call0_v0 : S1x11008.Idx → EReal) = shapeCast S1x11008 (m ((c : Thread nD τ).loc main_arg4)) shapeCasts_S11008_S1x11008 := by
  dsimp only [Gen.V, Gen.hostOps0]; after_results; rfl

/-- The bias row's block holds columns `256 t + q` of the bias argument. -/
theorem b_read (c : Dev nD) (t : Fin cfg0.N) (q : Fin 256) :
    iblk m c 4 t (ix2 ⟨0, Nat.one_pos⟩ q) = m ((c : Thread nD τ).loc main_arg4) (ix1 (col t q)) := by
  obtain ⟨-, -, -, -, -, -, -, -, e0, e1, -⟩ := idx_facts t
  have e : ((cfg0.win 4).blk t).view.emb (ix2 ⟨0, Nat.one_pos⟩ q) = ix2 ⟨0, Nat.one_pos⟩ (col t q) := funext fun a => Fin.ext (by
    match a with
    | ⟨0, _⟩ => show win0_4.index t (0 : Fin 2) * 1 + 1 * 0 = 0; omega
    | ⟨1, _⟩ => show win0_4.index t (1 : Fin 2) * 256 + 1 * q.val = t.val * 256 + q.val; omega)
  show (V m c main_call0_v0 : S1x11008.Idx → EReal) (((cfg0.win 4).blk t).view.emb (ix2 ⟨0, Nat.one_pos⟩ q)) = _
  rw [e, bias_row, shapeCast_addUnit_apply ![11008]]
  exact congrArg (m ((c : Thread nD τ).loc main_arg4)) (funext fun a => by match a with | ⟨0, _⟩ => rfl)

/-- WHAT POINT `t` WRITES BACK is block `t` of the layer function of the arrays as the region finds them. -/
theorem flushed_eq (c : Dev nD) (t : Fin cfg0.N) :
    (dats m 0 c).flushed 5 t = ((cfg0.win 5).blk t).view.read (Elt Ideal)
      (layer (V m c main_arg0) (V m c main_arg1) (V m c main_arg2) (V m c main_arg3) (m ((c : Thread nD τ).loc main_arg4))) := by
  rw [flushed5]
  unfold out0_5
  rw [View.canon_unit_zero zero_offsets]
  simp only [View.ld_unit_zero (S := S4096x256) zero_offsets, View.ld_unit_zero (S := S32x256) zero_offsets,
    View.ld_unit_zero (S := S32x4096) zero_offsets, View.ld_unit_zero (S := S1x256) zero_offsets]
  obtain ⟨-, -, -, -, -, -, -, -, -, -, e0, e1⟩ := idx_facts t
  funext j
  show k0_pay1 (F := Ideal) (iblk m c 1 t) (iblk m c 2 t) (iblk m c 3 t) (iblk m c 0 t) (iblk m c 4 t) j
    = layer (V m c main_arg0) (V m c main_arg1) (V m c main_arg2) (V m c main_arg3) (m ((c : Thread nD τ).loc main_arg4))
        (((cfg0.win 5).blk t).view.emb j)
  obtain ⟨p, q, rfl⟩ : ∃ (p : Fin 32) (q : Fin 256), j = ix2 p q := ⟨j 0, j 1, eq_ix2 j⟩
  refine (KernelBlock.pay_apply (iblk m c 1 t) (iblk m c 2 t) (iblk m c 3 t) (iblk m c 0 t) (iblk m c 4 t) p q).trans ?_
  have hi : ((cfg0.win 5).blk t).view.emb (ix2 p q) = ix2 p (col t q) := funext fun a => Fin.ext (by
    match a with
    | ⟨0, _⟩ => show win0_5.index t (0 : Fin 2) * 32 + 1 * p.val = p.val; omega
    | ⟨1, _⟩ => show win0_5.index t (1 : Fin 2) * 256 + 1 * q.val = t.val * 256 + q.val; omega)
  rw [hi]
  show _ = entry (V m c main_arg0) (V m c main_arg1) (V m c main_arg2) (V m c main_arg3) (m ((c : Thread nD τ).loc main_arg4)) p (col t q)
  unfold entry
  rw [b_read]
  refine congrArg (· + m ((c : Thread nD τ).loc main_arg4) (ix1 (col t q))) (Finset.sum_congr rfl fun k _ => ?_)
  rw [x_read, w_read, z_read, s_read]

/-- An index of the output array is in point `t`'s block iff each coordinate is in the block's range on its axis. -/
theorem mem_blk (t : Fin cfg0.N) (i : S32x11008.Idx) :
    i ∈ ((cfg0.win 5).blk t).view.set ↔ ∀ a : Fin 2, win0_5.index t a * S32x256.size a ≤ (i a).val ∧ (i a).val < win0_5.index t a * S32x256.size a + S32x256.size a := by
  show i ∈ ((View.whole main_v0).slice (win0_5.rect t)).set ↔ _
  rw [View.set_slice_whole, Rect.mem_set_unit]
  exact Iff.rfl

/-- Every index of the output array lies in some point's block: column `n` in block `n / 256`. -/
theorem cover (i : S32x11008.Idx) : ∃ t : Fin cfg0.N, (cfg0.win 5).flush t = true ∧ i ∈ ((cfg0.win 5).blk t).view.set := by
  have h0 : (i 0).val < 32 := (i 0).isLt
  have h1 : (i 1).val < 11008 := (i 1).isLt
  let t : Fin cfg0.N := ⟨(i 1).val / 256, lt_of_lt_of_eq (by omega : (i 1).val / 256 < 43) N_0.symm⟩
  obtain ⟨-, -, -, -, -, -, -, -, -, -, e0, e1⟩ := idx_facts t
  have et : t.val = (i 1).val / 256 := rfl
  refine ⟨t, flush0_5 t, ?_⟩
  rw [mem_blk]
  intro a
  match a with
  | ⟨0, _⟩ => show win0_5.index t (0 : Fin 2) * 32 ≤ (i 0).val ∧ (i 0).val < win0_5.index t (0 : Fin 2) * 32 + 32; omega
  | ⟨1, _⟩ => show win0_5.index t (1 : Fin 2) * 256 ≤ (i 1).val ∧ (i 1).val < win0_5.index t (1 : Fin 2) * 256 + 256; omega

/-- THE OUTPUT ARRAY after the run is the layer function of the argument arrays as launched. -/
theorem final (c : Dev nD) : (dats m 0 c).arrAt 5 cfg0.N
    = layer (m ((c : Thread nD τ).loc main_arg0)) (m ((c : Thread nD τ).loc main_arg1)) (m ((c : Thread nD τ).loc main_arg2))
        (m ((c : Thread nD τ).loc main_arg3)) (m ((c : Thread nD τ).loc main_arg4)) := by
  rw [← V_main_arg0 m c, ← V_main_arg1 m c, ← V_main_arg2 m c, ← V_main_arg3 m c]
  exact (dats m 0 c).arrAt_eq_of_cover 5 _ (fun t _ => flushed_eq m c t) cover

/-- THE KERNEL'S RUN: every weakly fair execution terminates with the result array at the layer function of the
    arguments, the arguments unchanged. -/
theorem run : θ_run defs (onTc (τ := τ) (main (F := Ideal))) ⟨m, fun _ => 0, ρ⟩ fun r => ∀ c : Dev nD,
      r.2.mem ((c : Thread nD τ).loc main_v0)
        = layer (m ((c : Thread nD τ).loc main_arg0)) (m ((c : Thread nD τ).loc main_arg1)) (m ((c : Thread nD τ).loc main_arg2))
            (m ((c : Thread nD τ).loc main_arg3)) (m ((c : Thread nD τ).loc main_arg4))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (final m c), (h c).2⟩) (run_blocks m ρ)

end Cert.KernelLayer

end
-- ==== Proof.lean ====
/-
  A 4-bit group-quantised linear layer, `out = x · W + bias` with `W[k, n] = ((q[k, n] - 8) - (z[k / 128, n] - 8)) * s[k / 128, n]`,
  computed by a kernel that tiles the 11008 output features into 43 blocks of 256 columns, against its plain reference.

  Both programs, read at the exact values, compute the same expression entry by entry (`Dequant.layer`): the same sum over
  the 4096 input features of the same products, plus the same bias entry — no law of arithmetic beyond rewriting is used,
  so nothing needs the float inputs to be finite. They differ in ONE place: the kernel converts a code to a real and then
  subtracts 8, the reference subtracts 8 from the 32-bit word (wrapping) and then converts. For a 4-bit code, `0 ≤ q < 16`,
  the word subtraction does not wrap and the two agree; that range is the part of the precondition this proof uses
  (`CodeRange.codes_of_pre`, used in `RefLayer.ref_eq`).

  The kernel's side: each grid point writes its block of the layer function (`KernelBlock.pay_apply`, `KernelLayer.flushed_eq`),
  the blocks cover the output (`KernelLayer.cover`), so the output array ends as the layer function (`KernelLayer.run`).
  The reference's side: its run's result term, read one operation at a time, is the layer function (`RefLayer.ref_eq`).
  The three frames are the two programs' runs with the result dropped and the kernel's word-level frame; the kernel's
  idealisation rewrote nothing, so there is nothing to preserve.
-/
import proofs.«111892_j39084202394118_1_alg».proof.Defs
import proofs.«111892_j39084202394118_1_alg».proof.Proof.Gen.Kernel
import proofs.«111892_j39084202394118_1_alg».proof.Proof.Gen.Kernel.Skeleton
import proofs.«111892_j39084202394118_1_alg».proof.Proof.Gen.Kernel.Launch
import proofs.«111892_j39084202394118_1_alg».proof.Proof.Gen.Kernel.Points
import proofs.«111892_j39084202394118_1_alg».proof.Proof.Gen.Kernel.Frame
import proofs.«111892_j39084202394118_1_alg».proof.Proof.Gen.KernelIdeal
import proofs.«111892_j39084202394118_1_alg».proof.Proof.Gen.KernelIdeal.Skeleton
import proofs.«111892_j39084202394118_1_alg».proof.Proof.Gen.KernelIdeal.Launch
import proofs.«111892_j39084202394118_1_alg».proof.Proof.Gen.KernelIdeal.Points
import proofs.«111892_j39084202394118_1_alg».proof.Proof.Gen.KernelIdeal.Frame
import proofs.«111892_j39084202394118_1_alg».proof.Proof.Gen.ReferenceIdeal
import proofs.«111892_j39084202394118_1_alg».proof.Proof.Gen.Pre_finite_inputs
import proofs.«111892_j39084202394118_1_alg».proof.Proof.Gen.KernelIdeal.Value
import proofs.«111892_j39084202394118_1_alg».proof.Proof.Gen.ReferenceIdeal.Run
import proofs.«111892_j39084202394118_1_alg».proof.Proof.Gen.ReferenceIdeal.Read
import proofs.«111892_j39084202394118_1_alg».proof.Proof.CodeRange
import proofs.«111892_j39084202394118_1_alg».proof.Proof.RefLayer
import proofs.«111892_j39084202394118_1_alg».proof.Proof.KernelLayer
import Idealize.ShloMosaic.Adequacy
import Idealize.ShloMosaic.Init

noncomputable section

namespace Cert.Proof

open Idealize.ShloMosaic Idealize.SL.Sem

/-- The word-level kernel runs and leaves its arguments unchanged. -/
theorem frame_kernel : Cert.frame_Kernel (hKernel := Cert.Kernel.Gen.facts) (hPre_finite_inputs := Cert.Pre_finite_inputs.Gen.facts) :=
  fun m ρ _ => Cert.Kernel.Gen.frame m ρ

/-- So does the kernel read at the exact values. -/
theorem frame_kernel_ideal : Cert.frame_KernelIdeal (hKernelIdeal := Cert.KernelIdeal.Gen.facts) (hPre_finite_inputs := Cert.Pre_finite_inputs.Gen.facts) :=
  fun m ρ _ => Cert.KernelIdeal.Gen.frame m ρ

/-- The reference's frame is its run with the result dropped. -/
theorem frame_reference : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

/-- From arguments that agree, both programs end with the layer function of those arguments: the kernel by its run, the
    reference by its run's term, which under the code ranges the precondition gives is the same function. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hagree
  refine ⟨_, Cert.KernelLayer.run m ρ, ?_⟩
  refine (θ_run Cert.ReferenceIdeal.defs _ _).mono (fun _ h c => ⟨(h c).1.trans ?_, (h c).2⟩)
    (Cert.ReferenceIdeal.Value.run (F := Ideal) m' ρ')
  obtain ⟨h1, h2⟩ := Cert.CodeRange.codes_of_pre _ _ _ _ _ (hpre c)
  rw [(hagree c).1, (hagree c).2.1, (hagree c).2.2.1, (hagree c).2.2.2.1, (hagree c).2.2.2.2]
  refine (Cert.ReferenceIdeal.Read.val_main_v15_eq _ _ _ _ _).trans ?_
  exact Cert.RefLayer.ref_eq _ _ _ _ _ h1 h2

theorem claim : Cert.Claim := ⟨Cert.Kernel.Gen.facts, Cert.KernelIdeal.Gen.facts, Cert.ReferenceIdeal.Gen.facts, Cert.Pre_finite_inputs.Gen.facts,
  frame_kernel, frame_kernel_ideal, frame_reference, trivial, algebraic⟩

end Cert.Proof

end
